-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x32000 : Shape := ⟨2, ![8192, 32000]⟩
abbrev S8192 : Shape := ⟨1, ![8192]⟩
abbrev S_ : Shape := ⟨0, ![]⟩

class Facts : Prop where
  bcast_S_S8192x32000 : S_.BroadcastsInDim S8192x32000 (![] : Fin 0 → Fin S8192x32000.rank)
  reducesTo_S8192x32000_S_d0_1 : S8192x32000.ReducesTo [0, 1] S_
  h_S_ : 0 < S_.numel
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S8192x32000 .f32) (main_arg1 : IVec S8192 32) : IVec S_ 1 :=
  let main_v0 : FVec F S8192x32000 .f32 := Host.absf main_arg0
  let main_cst : FVec F S_ .f32 := constant S_ .f32 0x7F800000#32
  let main_v1 : FVec F S8192x32000 .f32 := broadcastInDim S8192x32000 ![] bcast_S_S8192x32000 main_cst
  let main_v2 : IVec S8192x32000 1 := cmpf .olt main_v0 main_v1
  let main_c : IVec S_ 1 := constantI S_ 1 1#1
  let main_v3 : IVec S_ 1 := (fun x v => Host.reduce IntOp.andi x v reducesTo_S8192x32000_S_d0_1 h_S_) main_v2 main_c
  let main_c_0 : IVec S_ 32 := constantI S_ 32 0#32
  let main_v4 : IVec S8192 32 := broadcastInDim S8192 ![] bcast_S_S8192 main_c_0
  let main_v5 : IVec S8192 1 := cmpi .sge main_arg1 main_v4
  let main_c_1 : IVec S_ 32 := constantI S_ 32 32000#32
  let main_v6 : IVec S8192 32 := broadcastInDim S8192 ![] bcast_S_S8192 main_c_1
  let main_v7 : IVec S8192 1 := cmpi .slt main_arg1 main_v6
  let main_v8 : IVec S8192 1 := andi main_v5 main_v7
  let main_c_2 : IVec S_ 1 := constantI S_ 1 1#1
  let main_v9 : IVec S_ 1 := (fun x v => Host.reduce IntOp.andi x v reducesTo_S8192_S_d0 h_S_) main_v8 main_c_2
  let main_v10 : IVec S_ 1 := andi main_v3 main_v9
  main_v10
-- ==== Kernel.lean ====
abbrev S8192x32000 : Shape := ⟨2, ![8192, 32000]⟩
abbrev S8192 : Shape := ⟨1, ![8192]⟩
abbrev S8192x1 : Shape := ⟨2, ![8192, 1]⟩
abbrev S512x3200 : Shape := ⟨2, ![512, 3200]⟩
abbrev S512x1 : Shape := ⟨2, ![512, 1]⟩
abbrev S512 : Shape := ⟨1, ![512]⟩
abbrev S_ : Shape := ⟨0, ![]⟩

abbrev nBuf : Space → Nat
  | .hbm => 9
  | .vmem => 7
  | .smem => 0
  | _ => 0

abbrev bufTy : (tb : Table) → Fin (tcTables nBuf tb) → BufTy
  | .hbm, ⟨0, _⟩ => ⟨S8192x32000, .f32⟩
  | .hbm, ⟨1, _⟩ => ⟨S8192, .i32⟩
  | .hbm, ⟨2, _⟩ => ⟨S8192x1, .i32⟩
  | .hbm, ⟨3, _⟩ => ⟨S8192x1, .f32⟩
  | .hbm, ⟨4, _⟩ => ⟨S8192, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S512x3200, .f32⟩
  | .local _ .vmem, ⟨1, _⟩ => ⟨S512x3200, .f32⟩
  | .local _ .vmem, ⟨2, _⟩ => ⟨S512x1, .i32⟩
  | .local _ .vmem, ⟨3, _⟩ => ⟨S512x1, .i32⟩
  | .local _ .vmem, ⟨4, _⟩ => ⟨S512x1, .f32⟩
  | .local _ .vmem, ⟨5, _⟩ => ⟨S512x1, .f32⟩
  | .local _ .vmem, ⟨6, _⟩ => ⟨S512x1, .f32⟩
  | _, _ => ⟨S8192x32000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 10], ![false, false]⟩

def k0_cond2 (i : grid0.Coords) : BitVec 1 :=
  let arg1 : BitVec 32 := BitVec.ofNat 32 (i 1).val
  let c9_i32 : BitVec 32 := 9#32
  let v21 : BitVec 1 := Scalar.cmpi .eq arg1 c9_i32
  let v22 : BitVec 32 := Scalar.extui v21
  let c0_i32_9 : BitVec 32 := 0#32
  let v23 : BitVec 1 := Scalar.cmpi .ne v22 c0_i32_9
  v23

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x3200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S8192_S8192x1 : S8192.ShapeCasts S8192x1
  inb_S512x1_S512x1_0_0 : ∀ a, (![0, 0] : Fin 2 → Nat) a + S512x1.size a ≤ S512x1.size a
  h_S512x1 : 0 < S512x1.numel
  shapeCasts_S512x1_S512x1 : S512x1.ShapeCasts S512x1
  iota_S512x3200_d1_w32 : S512x3200.Iotas .tc 32 [1]
  broadcasts_S512x1_S512x3200 : S512x1.Broadcasts S512x3200
  inb_S512x3200_S512x3200_0_0 : ∀ a, (![0, 0] : Fin 2 → Nat) a + S512x3200.size a ≤ S512x3200.size a
  h_S512x3200 : 0 < S512x3200.numel
  reduces_S512x3200_S512 : S512x3200.Reduces [1] S512
  shapeCasts_S512_S512x1 : S512.ShapeCasts S512x1
  shapeCasts_S8192x1_S8192 : S8192x1.ShapeCasts S8192
  reducesTo_S8192_S_d0 : S8192.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x3200.size a ≤ S8192x32000.size a
  hwx0_0 : ∀ i : grid0.Coords, EltTy.bits .f32 = 32 ∨ (Rect.block (s := S8192x32000) S512x3200.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S8192x1.size a
  hwx0_1 : ∀ i : grid0.Coords, EltTy.bits .i32 = 32 ∨ (Rect.block (s := S8192x1) S512x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S8192x1.size a
  hwx0_2 : ∀ i : grid0.Coords, EltTy.bits .f32 = 32 ∨ (Rect.block (s := S8192x1) S512x1.size (cc0_transform_2 i) (hinb0_2 i)).WholeWords (EltTy.packing .f32)

variable [Facts₀]

abbrev win0_0 : Pipeline.Window sig grid0 :=
  Pipeline.Window.ofSpec (Memref.whole main_arg0) S512x3200.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8192x32000 : Shape := ⟨2, ![8192, 32000]⟩
abbrev S8192 : Shape := ⟨1, ![8192]⟩
abbrev S8192x1 : Shape := ⟨2, ![8192, 1]⟩
abbrev S_ : Shape := ⟨0, ![]⟩
abbrev S8192x1x1 : Shape := ⟨3, ![8192, 1, 1]⟩
abbrev S1 : Shape := ⟨1, ![1]⟩
abbrev S1x1x1 : Shape := ⟨3, ![1, 1, 1]⟩

abbrev nBuf : Space → Nat
  | .hbm => 32
  | .vmem => 0
  | .smem => 0
  | _ => 0

abbrev bufTy : (tb : Table) → Fin (tcTables nBuf tb) → BufTy
  | .hbm, ⟨0, _⟩ => ⟨S8192x32000, .f32⟩
  | .hbm, ⟨1, _⟩ => ⟨S8192, .i32⟩
  | .hbm, ⟨2, _⟩ => ⟨S8192x1, .i32⟩
  | .hbm, ⟨3, _⟩ => ⟨S_, .i32⟩
  | .hbm, ⟨4, _⟩ => ⟨S8192x1, .i32⟩
  | .hbm, ⟨5, _⟩ => ⟨S8192x1, .i1⟩
  | .hbm, ⟨6, _⟩ => ⟨S_, .i32⟩
  | .hbm, ⟨7, _⟩ => ⟨S8192x1, .i32⟩
  | .hbm, ⟨8, _⟩ => ⟨S8192x1, .i32⟩
  | .hbm, ⟨9, _⟩ => ⟨S8192x1, .i32⟩
  | .hbm, ⟨10, _⟩ => ⟨S8192x1x1, .i32⟩
  | .hbm, ⟨11, _⟩ => ⟨S1, .i32⟩
  | .hbm, ⟨12, _⟩ => ⟨S_, .i32⟩
  | .hbm, ⟨13, _⟩ => ⟨S8192x1x1, .i32⟩
  | .hbm, ⟨14, _⟩ => ⟨S8192x1x1, .i1⟩
  | .hbm, ⟨15, _⟩ => ⟨S1x1x1, .i32⟩
  | .hbm, ⟨16, _⟩ => ⟨S8192x1x1, .i32⟩
  | .hbm, ⟨17, _⟩ => ⟨S8192x1x1, .i1⟩
  | .hbm, ⟨18, _⟩ => ⟨S8192x1x1, .i1⟩
  | .hbm, ⟨19, _⟩ => ⟨S_, .i1⟩
  | .hbm, ⟨20, _⟩ => ⟨S8192x1, .i1⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192, .f32⟩
  | .hbm, ⟨26, _⟩ => ⟨S8192, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | _, _ => ⟨S8192x32000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_cst : Ref sig .tc := ⟨.hbm, 22, rfl⟩
abbrev main_call0_v14 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_cst : Ref sig .tc := ⟨.hbm, 27, rfl⟩
abbrev main_v4 : Ref sig .tc := ⟨.hbm, 28, rfl⟩
abbrev main_cst_0 : Ref sig .tc := ⟨.hbm, 29, rfl⟩
abbrev main_v5 : Ref sig .tc := ⟨.hbm, 30, rfl⟩
abbrev main_v6 : Ref sig .tc := ⟨.hbm, 31, rfl⟩

abbrev nD : Nat := 1
abbrev τ : Topo := Topo.v7x

variable {F : FTy → Type} [FloatOps F]

class Facts₀ : Prop where
  bcast_S8192_S8192x1_0 : S8192.BroadcastsInDim S8192x1 (![0] : Fin 1 → Fin S8192x1.rank)
  bcast_S_S8192x1 : S_.BroadcastsInDim S8192x1 (![] : Fin 0 → Fin S8192x1.rank)
  shapeCasts_S8192x1_S8192x1x1 : S8192x1.ShapeCasts S8192x1x1
  bcast_S_S8192x1x1 : S_.BroadcastsInDim S8192x1x1 (![] : Fin 0 → Fin S8192x1x1.rank)
  bcast_S1_S1x1x1_2 : S1.BroadcastsInDim S1x1x1 (![2] : Fin 1 → Fin S1x1x1.rank)
  bcast_S1x1x1_S8192x1x1_0_1_2 : S1x1x1.BroadcastsInDim S8192x1x1 (![0, 1, 2] : Fin 3 → Fin S8192x1x1.rank)
  reducesTo_S8192x1x1_S8192x1_d2 : S8192x1x1.ReducesTo [2] S8192x1
  h_S_ : 0 < S_.numel
  shapeCasts_S8192x1_S8192 : S8192x1.ShapeCasts S8192
  reducesTo_S8192_S_d0 : S8192.ReducesTo [0] S_
  gather_S8192x32000_S8192x1x1_S8192x1_n_1_0_0_1_2_11_wf : GatherDims.WF S8192x32000 S8192x1x1 S8192x1 [] [1] [0] [1] [0] 2 ![1, 1]

variable [Facts₀]

def gather_S8192x32000_S8192x1x1_S8192x1_n_1_0_0_1_2_11 : GatherDims S8192x32000 S8192x1x1 S8192x1 where
  offsetDims := []
  collapsedSliceDims := [1]
  operandBatchingDims := [0]
  startIndicesBatchingDims := [0]
  startIndexMap := [1]
  indexVectorDim := 2
  sliceSizes := ![1, 1]
  wf := gather_S8192x32000_S8192x1x1_S8192x1_n_1_0_0_1_2_11_wf

class Facts : Prop extends Facts₀ where

variable [Facts]
-- ==== Proof.Spec.lean ====
/-
  The mathematics both programs compute, stated once over the extended reals.

  Row i of the probability table x : [8192, 32000] has a label word y i; its true-class entry is x (i, y i).
  The kernel forms, per row, 0 - log of that entry and then averages the 8192 rows; the reference takes the log,
  averages, and negates the average. The two agree as soon as no entry is +∞: a log of an entry below +∞ is a real
  number or -∞, so the negated logs are reals or +∞, no sum meets +∞ and -∞ together, and negation passes through
  the sum and through the division by the positive real 8192.
-/
import Idealize.ShloMosaic.PureOps.Ideal
import Idealize.ShloMosaic.PureOps.Ideal.Laws
import Idealize.ShloMosaic.Lib.ValueIdx

noncomputable section

namespace Cert.Nll

open Idealize.ShloMosaic Idealize.ShloMosaic.ValueIdx

/-- The probability table's shape and the label vector's. -/
abbrev XS : Shape := ⟨2, ![8192, 32000]⟩
abbrev YS : Shape := ⟨1, ![8192]⟩

/-- Row i's true-class entry: the table at (i, y i) when the label word is a column number, and 0 otherwise
    (no column matches such a word). -/
def pick (x : XS.Idx → EReal) (y : YS.Idx → BitVec 32) (i : Fin 8192) : EReal :=
  if h : (y (ix1 i)).toNat < 32000 then x (ix2 i ⟨(y (ix1 i)).toNat, h⟩) else 0

/-- The word 0x46000000 is the real number 8192 (sign 0, exponent 140 - 127 = 13, mantissa 0). -/
theorem ofBits_8192 : Ideal.ofBits .f32 0x46000000#32 = ((8192 : ℝ) : EReal) := by
  simp [Ideal.ofBits, Ideal.ieee, -EReal.coe_mul]; norm_num

/-- The average of the rows' negated logs: (0 + Σ_i (0 - log p_i)) / 8192. -/
def meanNegLog (p : Fin 8192 → EReal) : EReal :=
  Ideal.div (Ideal.ofBits .f32 0x00000000#32 + ∑ i : Fin 8192, (Ideal.ofBits .f32 0x00000000#32 - Ideal.log (p i)))
    (Ideal.ofBits .f32 0x46000000#32)

/-- The negated average of the rows' logs: -((0 + Σ_i log p_i) / 8192). -/
def negMeanLog (p : Fin 8192 → EReal) : EReal :=
  -(Ideal.div (Ideal.ofBits .f32 0x00000000#32 + ∑ i : Fin 8192, Ideal.log (p i)) (Ideal.ofBits .f32 0x46000000#32))

/-- The log of an extended real below +∞ is below +∞. -/
theorem log_ne_top {z : EReal} (hz : z ≠ ⊤) : Ideal.log z ≠ ⊤ := by
  induction z using EReal.rec with
  | bot => simp
  | top => exact absurd rfl hz
  | coe r =>
    rw [Ideal.log_coe]
    split
    · exact bot_ne_top
    · exact EReal.coe_ne_top _

/-- Negation passes through a finite sum none of whose terms is +∞, and the sum is then not +∞ either. -/
theorem sum_neg_of_ne_top {ι : Type} [DecidableEq ι] (s : Finset ι) (a : ι → EReal) (ha : ∀ i, a i ≠ ⊤) :
    (∑ i ∈ s, a i) ≠ ⊤ ∧ (∑ i ∈ s, -a i) = -(∑ i ∈ s, a i) := by
  induction s using Finset.induction_on with
  | empty => simp
  | insert j s hj ih =>
    rw [Finset.sum_insert hj, Finset.sum_insert hj]
    refine ⟨(EReal.add_lt_top (ha j) ih.1).ne, ?_⟩
    rw [ih.2, EReal.neg_add (Or.inr ih.1) (Or.inl (ha j)), sub_eq_add_neg]

/-- THE LAW: averaging the negated logs is negating the averaged logs, when no entry is +∞. -/
theorem meanNegLog_eq_negMeanLog (p : Fin 8192 → EReal) (hp : ∀ i, p i ≠ ⊤) : meanNegLog p = negMeanLog p := by
  unfold meanNegLog negMeanLog
  rw [Ideal.ofBits_zero_f32, ofBits_8192, Ideal.div_coe (by norm_num : (8192 : ℝ) ≠ 0),
    Ideal.div_coe (by norm_num : (8192 : ℝ) ≠ 0), zero_add, zero_add]
  have h := (sum_neg_of_ne_top Finset.univ (fun i => Ideal.log (p i)) (fun i => log_ne_top (hp i))).2
  have e : (∑ i : Fin 8192, (0 - Ideal.log (p i))) = ∑ i : Fin 8192, -Ideal.log (p i) :=
    Finset.sum_congr rfl fun i _ => by rw [sub_eq_add_neg, zero_add]
  rw [e, h, EReal.neg_mul]

/-- The true-class entry is below +∞ when the whole table is. -/
theorem pick_ne_top (x : XS.Idx → EReal) (y : YS.Idx → BitVec 32) (hx : ∀ j, x j ≠ ⊤) (i : Fin 8192) :
    pick x y i ≠ ⊤ := by
  unfold pick
  split
  · exact hx _
  · exact EReal.zero_ne_top

end Cert.Nll

end
-- ==== Proof.PreRead.lean ====
import proofs.«431061_j10316511445616_1_alg».proof.Pre_finite_inputs
import proofs.«431061_j10316511445616_1_alg».proof.Proof.Spec
import Idealize.ShloMosaic.Lib.ReduceAll

/-!
  The precondition read back. The precondition is the conjunction of two statements, each an
  "and" over an index set of one-bit words: every entry of the float table is strictly below
  +∞ in absolute value, and every label word, read signed, lies in [0, 32000). From its being
  the all-ones scalar we recover, entry by entry, that no table entry is ⊤ and that every
  label, read unsigned, is below 32000.
-/

noncomputable section

namespace Cert.PreRead

open Idealize.ShloMosaic Idealize.ShloMosaic.ValueIdx
open Cert.Pre_finite_inputs

variable [Cert.Pre_finite_inputs.Facts]

/-- The rank-0 index set has one element. -/
private instance : Subsingleton Cert.Pre_finite_inputs.S_.Idx := ⟨fun a b => funext fun d => d.elim0⟩

/-- The pattern 0x7F800000 (sign 0, exponent all ones, fraction 0) denotes +∞. -/
private theorem ofBits_inf : Ideal.ofBits .f32 0x7F800000#32 = (⊤ : EReal) := by
  simp [Ideal.ofBits, Ideal.ieee]

/-- The two conjuncts of the precondition, each still an "and"-reduction that equals 1. -/
private theorem split (x : FVec Ideal Cert.Pre_finite_inputs.S8192x32000 .f32) (y : IVec Cert.Pre_finite_inputs.S8192 32)
    (h : Cert.Pre_finite_inputs.fn (F := Ideal) x y = fun _ => 1#1) :
    (∀ j : Cert.Pre_finite_inputs.S8192x32000.Idx, max (x j) (-(x j)) < (⊤ : EReal)) ∧
    (∀ i : Cert.Pre_finite_inputs.S8192.Idx, (0 : Int) ≤ (y i).toInt ∧ (y i).toInt < 32000) := by
  have h0 := congrFun h ValueIdx.ix0
  dsimp only [fn] at h0
  obtain ⟨hx, hy⟩ := IntOp.andi_eq_one.1 h0
  refine ⟨fun j => ?_, fun i => ?_⟩
  · have hj := Host.reduce_andi_all _ _ _ _ _ hx j
    change Ideal.cmp .olt (max (x j) (-(x j))) (Ideal.ofBits .f32 0x7F800000#32) = 1#1 at hj
    rw [ofBits_inf] at hj
    by_contra hlt
    rw [show Ideal.cmp .olt (max (x j) (-(x j))) (⊤ : EReal) = 0#1 from by simp [Ideal.cmp, hlt]] at hj
    exact absurd hj (by decide)
  · have hi := Host.reduce_andi_all _ _ _ _ _ hy i
    change IntOp.andi (IntOp.cmpi .sge (y i) 0#32) (IntOp.cmpi .slt (y i) 32000#32) = 1#1 at hi
    obtain ⟨h1, h2⟩ := IntOp.andi_eq_one.1 hi
    rw [IntOp.cmpi_sge] at h1
    rw [IntOp.cmpi_slt] at h2
    rw [show (0#32 : BitVec 32).toInt = 0 from by decide] at h1
    rw [show (32000#32 : BitVec 32).toInt = 32000 from by decide] at h2
    exact ⟨h1, h2⟩

theorem table_ne_top (x : FVec Ideal Cert.Pre_finite_inputs.S8192x32000 .f32) (y : IVec Cert.Pre_finite_inputs.S8192 32)
    (h : Cert.Pre_finite_inputs.fn (F := Ideal) x y = fun _ => 1#1) : ∀ j : Cert.Pre_finite_inputs.S8192x32000.Idx, x j ≠ ⊤ := by
  intro j hj
  have hlt := (split x y h).1 j
  rw [hj] at hlt
  exact absurd (lt_of_le_of_lt (le_max_left _ _) hlt) (lt_irrefl _)

theorem label_lt (x : FVec Ideal Cert.Pre_finite_inputs.S8192x32000 .f32) (y : IVec Cert.Pre_finite_inputs.S8192 32)
    (h : Cert.Pre_finite_inputs.fn (F := Ideal) x y = fun _ => 1#1) : ∀ i : Fin 8192, (y (ix1 i)).toNat < 32000 := by
  intro i
  obtain ⟨h1, h2⟩ := (split x y h).2 (ix1 i)
  have hn : (y (ix1 i)).toNat < 2 ^ 32 := (y (ix1 i)).isLt
  rw [BitVec.toInt_eq_toNat_cond] at h1 h2
  split at h1 <;> omega

end Cert.PreRead

end
-- ==== Proof.LibRowTake.lean ====
/-
  General lemmas, at any extents, for a per-row take out of a rank-2 table.

  * A fold of the bitwise and, from the bit 1, over bits that are all 1 is 1.
  * THE ROW TAKE: a gather from an [R, C] table at start indices [R, 1, 1] whose row axis is the batching axis on
    both sides and whose one start-index component names the (collapsed) column axis (what jnp.take_along_axis of a
    table along its last axis at one index per row lowers to), read at (p, 0): the table's row p at the start index
    idx (p, 0, 0), read as a signed integer and clamped into [0, C - 1].
  * The indices of a length-n vector are its n positions (an equivalence, for re-indexing a sum over them).
-/
import Idealize.ShloMosaic.Lib.ValueIdx
import Idealize.ShloMosaic.PureOps.Reduce
import Idealize.ShloMosaic.Lib.StableHlo.Predicate

noncomputable section

namespace Cert.LibRowTake

open Idealize.ShloMosaic Idealize.ShloMosaic.ValueIdx

/-- A fold of the bitwise and, from the bit 1, over bits that are all 1 is 1. -/
theorem fold_andi_one {ι : Type} (S : Finset ι) (f : ι → BitVec 1) (hf : ∀ i, f i = 1#1) :
    S.fold IntOp.andi 1#1 f = 1#1 := by
  induction S using Finset.cons_induction with
  | empty => rfl
  | cons a S ha ih => rw [Finset.fold_cons, ih, hf a]; rfl

/-- THE ROW TAKE. A gather from an [R, C] table with start indices [R, 1, 1]: the table's row axis and the start indices' leading
    axis are the batching pair, the column axis is collapsed and is the one the start index names, the index vector lies
    on the trailing axis, and there are no offset axes. Result element (p, 0) is the table's row p at the start index
    idx (p, 0, 0), read signed and clamped into [0, C - 1]. -/
theorem gather_row_take {α : Type} {R C w : Nat} (d : GatherDims ⟨2, ![R, C]⟩ ⟨3, ![R, 1, 1]⟩ ⟨2, ![R, 1]⟩)
    (hoff : d.offsetDims = []) (hcoll : d.collapsedSliceDims = [1]) (hob : d.operandBatchingDims = [0])
    (hsb : d.startIndicesBatchingDims = [0]) (hsim : d.startIndexMap = [1]) (hivd : d.indexVectorDim = 2)
    (x : (⟨2, ![R, C]⟩ : Shape).Idx → α) (idx : IVec ⟨3, ![R, 1, 1]⟩ w) (p : Fin R) (hC : 0 < C) :
    Host.gather d x idx (ix2 p (0 : Fin 1))
      = x (ix2 p ⟨min (idx (ix3 p (0 : Fin 1) (0 : Fin 1))).toInt.toNat (C - 1), by omega⟩) := by
  have hsl : d.sliceSizes 1 = 1 := d.slice_collapsed 1 (by rw [hcoll]; exact List.mem_singleton.mpr rfl)
  obtain ⟨od, cd, ob, sb, sm, iv, ss, wf⟩ := d
  simp only at hoff hcoll hob hsb hsim hivd hsl
  subst hoff hcoll hob hsb hsim hivd
  unfold Host.gather
  congr 1
  funext a
  refine Fin.ext ?_
  match a with
  | ⟨0, _⟩ =>
    -- the row axis: no start, the batch coordinate p, no offset
    show GatherDims.start _ (ix2 p 0) idx 0 + GatherDims.batchCoord _ (ix2 p 0) 0 + GatherDims.offCoord _ (ix2 p 0) 0 = p.val
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (List.mem_singleton.mpr rfl)]
    rfl
  | ⟨1, _⟩ =>
    -- the column axis: the clamped start index, no batch coordinate, no offset
    show GatherDims.start _ (ix2 p 0) idx 1 + GatherDims.batchCoord _ (ix2 p 0) 1 + GatherDims.offCoord _ (ix2 p 0) 1
      = min (idx (ix3 p 0 0)).toInt.toNat (C - 1)
    rw [GatherDims.batchCoord_eq_zero _ _ _ (by simp),
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    refine congrArg₂ min (congrArg (fun i => (idx i).toInt.toNat) ?_) ?_
    · funext b
      refine Fin.ext ?_
      match b with
      | ⟨0, _⟩ => rfl
      | ⟨1, _⟩ => rfl
      | ⟨2, _⟩ => rfl
    · show C - ss 1 = C - 1
      rw [hsl]

/-- The indices of a length-n vector are its n positions. -/
def rowEquiv (n : Nat) : Fin n ≃ (⟨1, ![n]⟩ : Shape).Idx where
  toFun := ix1
  invFun j := j 0
  left_inv _ := rfl
  right_inv j := (eq_ix1 j).symm

end Cert.LibRowTake

end
-- ==== Proof.RefValue.lean ====
/-
  The reference side, read to its value. The reference adjusts each label word (a negative one gets 32000 added),
  checks the adjusted word against [0, 31999], takes from each row of the table the entry at the adjusted word clamped into
  that range, replaces the entry by a NaN constant where the check failed, and returns minus the mean of the logs.
  When every label word is a column number nothing is adjusted, every check passes and the clamp moves nothing, so
  row i contributes log x (i, y i) and the result is the negated mean of those logs.
-/
import proofs.«431061_j10316511445616_1_alg».proof.Proof.Gen.ReferenceIdeal.Read
import proofs.«431061_j10316511445616_1_alg».proof.Proof.Spec
import proofs.«431061_j10316511445616_1_alg».proof.Proof.LibRowTake
import Idealize.ShloMosaic.PureOps.Reduce
import Idealize.ShloMosaic.Lib.StableHlo.Predicate

noncomputable section

namespace Cert.RefValue

open Idealize.ShloMosaic Idealize.ShloMosaic.ValueIdx
open Cert.ReferenceIdeal Cert.ReferenceIdeal.Read Cert.LibRowTake

/-! ## The reference's stages under the hypothesis that every label word is a column number -/

variable [Cert.ReferenceIdeal.Facts]
open Facts₀ Facts

/-- Every label word is a column number, at every index of the label vector. -/
theorem lab_lt (y : (⟨S8192, .i32⟩ : BufTy).Contents (Elt Ideal)) (hy : ∀ i : Fin 8192, (y (ix1 i)).toNat < 32000)
    (j : S8192.Idx) : (y j).toNat < 32000 := by
  rw [eq_ix1 j]; exact hy _

/-- The adjusted label is the label: a column number is not negative, so nothing is added. -/
theorem v5_read (y : (⟨S8192, .i32⟩ : BufTy).Contents (Elt Ideal)) (hy : ∀ i : Fin 8192, (y (ix1 i)).toNat < 32000)
    (i : S8192x1x1.Idx) : val_main_call0_v5 (F := Ideal) y i = y (idx_main_v0 (idx_main_call0_v5 i)) := by
  rw [val_main_call0_v5_apply, val_main_call0_v4_apply, val_main_call0_v1_apply, val_main_v0_apply,
    val_main_call0_v0_apply, val_main_call0_c_apply]
  have h := lab_lt y hy (idx_main_v0 (idx_main_call0_v5 i))
  have hn : ¬ IntOp.cmpi .slt (y (idx_main_v0 (idx_main_call0_v5 i))) 0#32 = 1#1 := by
    rw [StableHlo.Predicate.slt_iff_toNat (by omega) (by decide)]
    simp
  rw [eq_zero_of_ne_one hn, select_zero]

/-- At row p the adjusted label is y p. -/
theorem v5_row (y : (⟨S8192, .i32⟩ : BufTy).Contents (Elt Ideal)) (hy : ∀ i : Fin 8192, (y (ix1 i)).toNat < 32000)
    (p : Fin 8192) : val_main_call0_v5 (F := Ideal) y (ix3 p (0 : Fin 1) (0 : Fin 1)) = y (ix1 p) := by
  rw [v5_read y hy]
  congr 1
  funext a
  match a with
  | ⟨0, _⟩ => exact Fin.ext (show ((p.val * 1 + 0) * 1 + 0) / 1 = p.val by omega)

/-- The range check passes everywhere: 0 ≤ y' and y' ≤ 31999. -/
theorem v11_one (y : (⟨S8192, .i32⟩ : BufTy).Contents (Elt Ideal)) (hy : ∀ i : Fin 8192, (y (ix1 i)).toNat < 32000)
    (i : S8192x1x1.Idx) : val_main_call0_v11 (F := Ideal) y i = 1#1 := by
  rw [val_main_call0_v11_apply, val_main_call0_v7_apply, val_main_call0_v10_apply, v5_read y hy,
    val_main_call0_v6_apply, val_main_call0_c_2_apply, val_main_call0_v9_apply, val_main_call0_v8_apply,
    val_main_call0_c_1_apply]
  have h := lab_lt y hy (idx_main_v0 (idx_main_call0_v5 i))
  rw [(StableHlo.Predicate.sge_iff_toNat (by omega) (by decide)).mpr (Nat.zero_le _),
    (StableHlo.Predicate.sle_iff_toNat (by omega) (by decide)).mpr (show _ ≤ 31999 by omega)]
  rfl

/-- So its and-reduction over the trailing axis is 1 at every row. -/
theorem v12_one (y : (⟨S8192, .i32⟩ : BufTy).Contents (Elt Ideal)) (hy : ∀ i : Fin 8192, (y (ix1 i)).toNat < 32000)
    (j : S8192x1.Idx) : val_main_call0_v12 (F := Ideal) y j = 1#1 := by
  unfold val_main_call0_v12
  rw [Host.reduce_eq_fold]
  exact fold_andi_one _ _ (v11_one y hy)

/-- The gather takes, from row p, the entry at column y p: the clamp into [0, 31999] moves nothing. -/
theorem v13_read (x : (⟨S8192x32000, .f32⟩ : BufTy).Contents (Elt Ideal)) (y : (⟨S8192, .i32⟩ : BufTy).Contents (Elt Ideal))
    (hy : ∀ i : Fin 8192, (y (ix1 i)).toNat < 32000) (p : Fin 8192) :
    val_main_call0_v13 (F := Ideal) x y (ix2 p (0 : Fin 1)) = x (ix2 p ⟨(y (ix1 p)).toNat, hy p⟩) := by
  unfold val_main_call0_v13
  refine (gather_row_take _ rfl rfl rfl rfl rfl rfl x _ p (by norm_num)).trans ?_
  have h := hy p
  have hm : min (val_main_call0_v5 (F := Ideal) y (ix3 p (0 : Fin 1) (0 : Fin 1))).toInt.toNat (32000 - 1)
      = (y (ix1 p)).toNat := by
    rw [v5_row y hy, StableHlo.Predicate.toInt_eq_toNat_of_lt (by omega), Int.toNat_natCast]
    omega
  exact congrArg x (congrArg (ix2 p) (Fin.ext hm))

/-- Row p's entry, after the select and the reshape, is the true-class entry. -/
theorem v2_read (x : (⟨S8192x32000, .f32⟩ : BufTy).Contents (Elt Ideal)) (y : (⟨S8192, .i32⟩ : BufTy).Contents (Elt Ideal))
    (hy : ∀ i : Fin 8192, (y (ix1 i)).toNat < 32000) (p : Fin 8192) :
    val_main_v2 (F := Ideal) x y (ix1 p) = Cert.Nll.pick x y p := by
  have hi : idx_main_v2 (ix1 p) = ix2 p (0 : Fin 1) := by
    funext a
    match a with
    | ⟨0, _⟩ => exact Fin.ext (Nat.div_one _)
    | ⟨1, _⟩ => rfl
  rw [val_main_v2_apply, val_main_v1_apply, hi, v12_one y hy, select_one, v13_read x y hy]
  unfold Cert.Nll.pick
  rw [dif_pos (hy p)]

/-- THE REFERENCE'S VALUE: the negated mean of the logs of the true-class entries. -/
theorem ref_result (x : (⟨Cert.ReferenceIdeal.S8192x32000, .f32⟩ : BufTy).Contents (Elt Ideal)) (y : (⟨Cert.ReferenceIdeal.S8192, .i32⟩ : BufTy).Contents (Elt Ideal))
    (hy : ∀ i : Fin 8192, (y (ix1 i)).toNat < 32000) :
    Cert.ReferenceIdeal.Read.val_main_v6 (F := Ideal) x y = fun _ => Cert.Nll.negMeanLog (Cert.Nll.pick x y) := by
  funext i
  have hs : ∑ j : S8192.Idx, val_main_v3 (F := Ideal) x y j = ∑ i : Fin 8192, Ideal.log (Cert.Nll.pick x y i) := by
    rw [← Equiv.sum_comp (rowEquiv 8192) (val_main_v3 (F := Ideal) x y)]
    refine Finset.sum_congr rfl fun i _ => ?_
    show val_main_v3 (F := Ideal) x y (ix1 i) = _
    rw [val_main_v3_apply, Ideal.hostUnary_log_def, v2_read x y hy]
  rw [val_main_v6_apply, val_main_v5_apply, val_main_v4_apply, val_main_cst_0_apply, val_main_cst_apply, hs]
  simp only [Ideal.hostNegf_def, Ideal.negf_def, Ideal.hostDivf_def, Ideal.ofBits_def]
  rfl

end Cert.RefValue

end
-- ==== Proof.CaseValues.lean ====
/-
  What each control case of the kernel body leaves behind, as values.

  The body keeps a [512, 1] accumulator across the ten column tiles of a row tile. At the first column tile it
  stores zeros and then adds the tile's contribution to them; at the others it adds the contribution to what the
  tile before left; at the last one it also stores 0 - log of the fresh accumulator into the output block. Each
  lemma reads the stores the body's run made back as one payload of the blocks the body loaded.
-/
import proofs.«431061_j10316511445616_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.NllKernel

open Cert.KernelIdeal Cert.KernelIdeal.Gen

variable {F : FTy → Type} [FloatOps F]

theorem hz : (![0, 0] : Fin 2 → Nat) = fun _ => 0 := funext fun a => by fin_cases a <;> rfl

/-- The accumulator after a middle column tile: the contribution payload over what the tile before left. -/
theorem sout_B (c : Dev nD) (i : grid0.Coords) (a2 : Memref sig .tc .vmem S512x3200 .f32) (h2 : a2.IsWhole)
    (a3 : Memref sig .tc .vmem S512x1 .i32) (h3 : a3.IsWhole) (a4 : Memref sig .tc .vmem S512x1 .f32) (h4 : a4.IsWhole)
    (a5 : Memref sig .tc .vmem S512x1 .f32) (h5 : a5.IsWhole) (hc0 : ¬cond0_0 i) (hc1 : ¬cond0_1 i)
    (x0 : Vec F S512x3200 .f32) (x1 : Vec F S512x1 .i32) (xs0 : Vec F S512x1 .f32) :
    sout0_B_0 c i a2 h2 a3 h3 a4 h4 a5 h5 hc0 hc1 x0 x1 xs0 = k0_pay2 i x1 x0 xs0 := by
  unfold sout0_B_0
  rw [View.read_writes_eq_canon _ _ _ (scover0_B_0 c i a2 h2 a3 h3 a4 h4 a5 h5 hc0 hc1 x0 x1 xs0)]
  unfold kernelRun0_B
  dsimp only
  sl_unfold_words
  rw [View.canon_unit_zero hz]
  simp only [View.readAt_eq_ld, h2.read_unread, h3.read_unread, h5.read_unread, View.ld_unit_zero (S := S512x1) hz,
    View.ld_unit_zero (S := S512x3200) hz]

/-- The accumulator after the last column tile: the same payload. -/
theorem sout_C (c : Dev nD) (i : grid0.Coords) (a2 : Memref sig .tc .vmem S512x3200 .f32) (h2 : a2.IsWhole)
    (a3 : Memref sig .tc .vmem S512x1 .i32) (h3 : a3.IsWhole) (a4 : Memref sig .tc .vmem S512x1 .f32) (h4 : a4.IsWhole)
    (a5 : Memref sig .tc .vmem S512x1 .f32) (h5 : a5.IsWhole) (hc0 : ¬cond0_0 i) (hc1 : cond0_1 i)
    (x0 : Vec F S512x3200 .f32) (x1 : Vec F S512x1 .i32) (xs0 : Vec F S512x1 .f32) :
    sout0_C_0 c i a2 h2 a3 h3 a4 h4 a5 h5 hc0 hc1 x0 x1 xs0 = k0_pay2 i x1 x0 xs0 := by
  unfold sout0_C_0
  rw [View.read_writes_eq_canon _ _ _ (scover0_C_0 c i a2 h2 a3 h3 a4 h4 a5 h5 hc0 hc1 x0 x1 xs0)]
  unfold kernelRun0_C
  dsimp only
  sl_unfold_words
  rw [View.canon_unit_zero hz]
  simp only [View.readAt_eq_ld, h2.read_unread, h3.read_unread, h5.read_unread, View.ld_unit_zero (S := S512x1) hz,
    View.ld_unit_zero (S := S512x3200) hz]

/-- The output block after the last column tile: 0 - log of the accumulator it has just updated. -/
theorem out_C (c : Dev nD) (i : grid0.Coords) (a2 : Memref sig .tc .vmem S512x3200 .f32) (h2 : a2.IsWhole)
    (a3 : Memref sig .tc .vmem S512x1 .i32) (h3 : a3.IsWhole) (a4 : Memref sig .tc .vmem S512x1 .f32) (h4 : a4.IsWhole)
    (a5 : Memref sig .tc .vmem S512x1 .f32) (h5 : a5.IsWhole) (hc0 : ¬cond0_0 i) (hc1 : cond0_1 i)
    (x0 : Vec F S512x3200 .f32) (x1 : Vec F S512x1 .i32) (xs0 : Vec F S512x1 .f32) :
    out0_C_2 c i a2 h2 a3 h3 a4 h4 a5 h5 hc0 hc1 x0 x1 xs0 = k0_pay3 (k0_pay2 i x1 x0 xs0) := by
  unfold out0_C_2
  rw [View.read_writes_eq_canon _ _ _ (cover0_C_2 c i a2 h2 a3 h3 a4 h4 a5 h5 hc0 hc1 x0 x1 xs0)]
  unfold kernelRun0_C
  dsimp only
  sl_unfold_words
  rw [View.canon_unit_zero hz]
  simp only [View.readCov_unit_zero (S := S512x1) _ hz, View.readAt_eq_ld, h2.read_unread, h3.read_unread, h5.read_unread,
    View.ld_unit_zero (S := S512x1) hz, View.ld_unit_zero (S := S512x3200) hz]

/-- The accumulator after the first column tile: the contribution payload over the zeros just stored. -/
theorem sout_A (c : Dev nD) (i : grid0.Coords) (a2 : Memref sig .tc .vmem S512x3200 .f32) (h2 : a2.IsWhole)
    (a3 : Memref sig .tc .vmem S512x1 .i32) (h3 : a3.IsWhole) (a4 : Memref sig .tc .vmem S512x1 .f32) (h4 : a4.IsWhole)
    (a5 : Memref sig .tc .vmem S512x1 .f32) (h5 : a5.IsWhole) (hc0 : cond0_0 i) (hc1 : ¬cond0_1 i)
    (x0 : Vec F S512x3200 .f32) (x1 : Vec F S512x1 .i32) :
    sout0_A_0 c i a2 h2 a3 h3 a4 h4 a5 h5 hc0 hc1 x0 x1 = k0_pay2 i x1 x0 (k0_pay1 (F := F)) := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S512x1) hz]
  simp only [View.readCov_unit_zero (S := S512x1) _ hz, View.readAt_eq_ld, h2.read_unread, h3.read_unread,
    View.ld_unit_zero (S := S512x1) hz, View.ld_unit_zero (S := S512x3200) hz]

end Cert.NllKernel

end
-- ==== Proof.Payload.lean ====
/-
  The kernel body's three payloads read at a row, at the ideal instance.

  The contribution of column tile j to row p of a row tile: the lanes l of the tile's block whose absolute column
  number l + 3200 j, as a word, equals the row's label word keep their entry, the others become 0, and the lane
  sum is added to the accumulator. The reset payload is 0 everywhere, and the closing payload is 0 - log.
-/
import proofs.«431061_j10316511445616_1_alg».proof.Proof.Gen.KernelIdeal.Skeleton
import Idealize.ShloMosaic.Lib.Pipeline.Value
import Idealize.ShloMosaic.Lib.ValueIdx
import Idealize.ShloMosaic.Lib.StableHlo.Predicate
import Idealize.ShloMosaic.PureOps.Ideal.Laws

noncomputable section

open Idealize.ShloMosaic Idealize.ShloMosaic.ValueIdx

namespace Cert.NllPayload

open Cert.KernelIdeal Cert.KernelIdeal.Gen

/-- A [512] vector viewed as a [512, 1] column reads row p at (p, 0). -/
theorem cast_col {α : Type} (v : S512.Idx → α) (h : S512.ShapeCasts S512x1) (p : Fin 512) :
    shapeCast S512x1 v h (ix2 p (0 : Fin 1)) = v (ix1 p) :=
  shapeCast_apply v h (ix2 p (0 : Fin 1)) (ix1 p) (by
    rw [Shape.rowMajor_val_one, Shape.rowMajor_val_two]; show p.val = p.val * 1 + 0; omega)

/-- A select on a word comparison is the if on the words' equality. -/
theorem select_cmpi_eq {α : Type} (a b : BitVec 32) (u w : α) :
    Scalar.select (IntOp.cmpi .eq a b) u w = if a = b then u else w := by
  by_cases h : a = b
  · rw [if_pos h, StableHlo.Predicate.cmpi_eq_iff.2 h]; exact select_one u w
  · rw [if_neg h, eq_zero_of_ne_one (fun h1 => h (StableHlo.Predicate.cmpi_eq_iff.1 h1))]; exact select_zero u w

/-- THE CONTRIBUTION at row p: the accumulator's entry plus the sum over the tile's 3200 lanes of the entries whose
    absolute column number is the row's label word. -/
theorem pay2_apply (i : grid0.Coords) (v7 : Vec Ideal S512x1 .i32) (v11 : Vec Ideal S512x3200 .f32)
    (v14 : Vec Ideal S512x1 .f32) (p : Fin 512) :
    k0_pay2 (F := Ideal) i v7 v11 v14 (ix2 p (0 : Fin 1))
      = v14 (ix2 p (0 : Fin 1)) + ∑ l : Fin 3200, (if BitVec.ofNat 32 l.val + BitVec.ofNat 32 (i 1).val * 3200#32 = v7 (ix2 p (0 : Fin 1)) then v11 (ix2 p l) else 0) := by
  unfold k0_pay2
  dsimp only
  refine (congrFun (shapeCast_self _ _) _).trans ?_
  refine (addf_apply _ _ _).trans ?_
  refine congrArg (fun t => v14 (ix2 p (0 : Fin 1)) + t) ?_
  refine (cast_col _ _ p).trans ?_
  refine (Ideal.multiReduction_add_single _ _ _ _ _ (ix1 p)).trans ?_
  refine Finset.sum_congr rfl fun l _ => ?_
  have hl : reduces_S512x3200_S512.lift (ix1 p) l = (ix2 p l : S512x3200.Idx) :=
    funext fun c => Fin.ext (match c with | ⟨0, _⟩ => rfl | ⟨1, _⟩ => rfl)
  rw [hl]
  have e1 : iota Kind.tc S512x3200 32 [1] iota_S512x3200_d1_w32 (ix2 p l) = BitVec.ofNat 32 l.val :=
    iota_single_apply .tc S512x3200 32 1 iota_S512x3200_d1_w32 (ix2 p l)
  have e2 : broadcastTo S512x3200 (shapeCast S512x1 v7 shapeCasts_S512x1_S512x1) broadcasts_S512x1_S512x3200 (ix2 p l)
      = v7 (ix2 p (0 : Fin 1)) :=
    (broadcastTo_apply _ broadcasts_S512x1_S512x3200 (ix2 p l) (ix2 p (0 : Fin 1)) (fun a => match a with
      | ⟨0, _⟩ => by show p.val = if (512 : Nat) = 1 then 0 else p.val; rw [if_neg (by decide)]
      | ⟨1, _⟩ => by show 0 = if (1 : Nat) = 1 then 0 else l.val; rw [if_pos rfl])).trans
      (congrFun (shapeCast_self v7 _) _)
  show Scalar.select (IntOp.cmpi .eq (iota Kind.tc S512x3200 32 [1] iota_S512x3200_d1_w32 (ix2 p l) + BitVec.ofNat 32 (i 1).val * 3200#32)
      (broadcastTo S512x3200 (shapeCast S512x1 v7 shapeCasts_S512x1_S512x1) broadcasts_S512x1_S512x3200 (ix2 p l)))
      (v11 (ix2 p l)) (Ideal.ofBits .f32 0x00000000#32) = _
  rw [e1, e2, select_cmpi_eq, Ideal.ofBits_zero_f32]

/-- The reset payload is 0 at every row. -/
theorem pay1_apply (j : S512x1.Idx) : k0_pay1 (F := Ideal) j = 0 := by
  unfold k0_pay1
  refine (congrFun (shapeCast_self _ _) _).trans ?_
  show Ideal.ofBits .f32 0x00000000#32 = 0
  exact Ideal.ofBits_zero_f32

/-- The closing payload at a row: 0 - log of the accumulator's entry. -/
theorem pay3_apply (v24 : Vec Ideal S512x1 .f32) (j : S512x1.Idx) :
    k0_pay3 (F := Ideal) v24 j = Ideal.ofBits .f32 0x00000000#32 - Ideal.log (v24 j) := rfl

end Cert.NllPayload

end
-- ==== Proof.Blocks.lean ====
/-
  The blocks the body loads at a grid point, read off the arrays the region finds.

  Point t of the 16 x 10 grid is row tile r = t / 10 and column tile j = t % 10. The table's block at t holds rows
  512 r .. 512 r + 511 and columns 3200 j .. 3200 j + 3199; the label column's block holds the same rows. The label
  column itself is the label vector viewed as [8192, 1] by the host line before the region.
-/
import proofs.«431061_j10316511445616_1_alg».proof.Proof.Gen.KernelIdeal.Frame
import Idealize.ShloMosaic.Lib.Pipeline.Value
import Idealize.ShloMosaic.Lib.ValueIdx
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.NllBlocks

open Cert.KernelIdeal Cert.KernelIdeal.Gen

variable {F : FTy → Type} [FloatOps F]
variable (m : (ℓ : Loc nD τ sig) → Buf (Elt F) ℓ)

/-- The table and the label column as the region finds them, and their blocks at a point, at their literal types. -/
abbrev xarr (c : Dev nD) : Vec F S8192x32000 .f32 := V m c main_arg0
abbrev yarr (c : Dev nD) : Vec F S8192x1 .i32 := V m c main_v0
abbrev xblk (c : Dev nD) (t : Fin cfg0.N) : Vec F S512x3200 .f32 := iblk m c 0 t
abbrev yblk (c : Dev nD) (t : Fin cfg0.N) : Vec F S512x1 .i32 := iblk m c 1 t

/-- The index maps over the grid: the row tile is t / 10, the column tile t % 10. -/
theorem idx_facts : ∀ t : Fin cfg0.N,
    win0_0.index t 0 = t.val / 10 ∧ win0_0.index t 1 = t.val % 10 ∧ win0_1.index t 0 = t.val / 10 ∧ win0_1.index t 1 = 0
      ∧ win0_2.index t 0 = t.val / 10 ∧ win0_2.index t 1 = 0 ∧ ((grid0.coords t) 1).val = t.val % 10 :=
  (by decide +kernel : ∀ t : Fin grid0.N,
    win0_0.index t 0 = t.val / 10 ∧ win0_0.index t 1 = t.val % 10 ∧ win0_1.index t 0 = t.val / 10 ∧ win0_1.index t 1 = 0
      ∧ win0_2.index t 0 = t.val / 10 ∧ win0_2.index t 1 = 0 ∧ ((grid0.coords t) 1).val = t.val % 10)

theorem t_lt (t : Fin cfg0.N) : t.val < 160 := lt_of_lt_of_eq t.isLt (show cfg0.N = 160 from N_0)

/-- The table row under row p of point t's row tile, and the table column under lane l of its column tile. -/
abbrev rowOf (t : Fin cfg0.N) (p : Fin 512) : Fin 8192 :=
  ⟨512 * (t.val / 10) + p.val, by have := t_lt t; have := p.isLt; omega⟩
abbrev colOf (t : Fin cfg0.N) (l : Fin 3200) : Fin 32000 :=
  ⟨3200 * (t.val % 10) + l.val, by have := l.isLt; have := Nat.mod_lt t.val (show 10 > 0 by decide); omega⟩

/-- The table's block at point t, entry (p, l): the table at row 512 (t / 10) + p, column 3200 (t % 10) + l. -/
theorem xblk_apply (c : Dev nD) (t : Fin cfg0.N) (p : Fin 512) (l : Fin 3200) :
    xblk m c t (ix2 p l) = xarr m c (ix2 (rowOf t p) (colOf t l)) := by
  unfold xblk iblk
  rw [View.read_apply]
  show V m c main_arg0 _ = V m c main_arg0 _
  congr 1
  funext a
  apply Fin.ext
  match a with
  | ⟨0, _⟩ => show win0_0.index t 0 * 512 + 1 * p.val = 512 * (t.val / 10) + p.val; rw [(idx_facts t).1]; omega
  | ⟨1, _⟩ => show win0_0.index t 1 * 3200 + 1 * l.val = 3200 * (t.val % 10) + l.val; rw [(idx_facts t).2.1]; omega

/-- The label column's block at point t, row p: the label column at row 512 (t / 10) + p. -/
theorem yblk_apply (c : Dev nD) (t : Fin cfg0.N) (p : Fin 512) :
    yblk m c t (ix2 p (0 : Fin 1)) = yarr m c (ix2 (rowOf t p) (0 : Fin 1)) := by
  unfold yblk iblk
  rw [View.read_apply]
  show V m c main_v0 _ = V m c main_v0 _
  congr 1
  funext a
  apply Fin.ext
  match a with
  | ⟨0, _⟩ => show win0_1.index t 0 * 512 + 1 * p.val = 512 * (t.val / 10) + p.val; rw [(idx_facts t).2.2.1]; omega
  | ⟨1, _⟩ => show win0_1.index t 1 * 1 + 1 * 0 = 0; rw [(idx_facts t).2.2.2.1]

/-- The table is found as launched. -/
theorem xarr_eq (c : Dev nD) : xarr m c = m ((c : Thread nD τ).loc main_arg0) := V_main_arg0 m c

/-- The label column is the label vector viewed as [8192, 1]. -/
theorem yarr_eq (c : Dev nD) :
    yarr m c = shapeCast S8192x1 (m ((c : Thread nD τ).loc main_arg1)) shapeCasts_S8192_S8192x1 := by
  show StableHlo.after hostOps0 (fun b => m (c, b)) (Proc.devRef .tc main_v0) = _
  after_results
  rfl

/-- So its row i is the label vector's entry i. -/
theorem yarr_apply (c : Dev nD) (i : Fin 8192) :
    yarr m c (ix2 i (0 : Fin 1)) = m ((c : Thread nD τ).loc main_arg1) (ix1 i) := by
  rw [yarr_eq]
  exact shapeCast_apply _ shapeCasts_S8192_S8192x1 (ix2 i (0 : Fin 1)) (ix1 i) (by
    rw [Shape.rowMajor_val_one, Shape.rowMajor_val_two]; show i.val = i.val * 1 + 0; omega)

end Cert.NllBlocks

end
-- ==== Proof.StepMath.lean ====
/-
  The arithmetic of one accumulation step, over the extended reals.

  Row entries are g : Fin 32000 → EReal, the row's label word is yw with yw.toNat < 32000, and column tile j < 10
  holds the columns 3200 j .. 3200 j + 3199. A lane l of the tile keeps its entry when its absolute column number,
  formed as the 32-bit word  l + j * 3200, equals the label word; nothing wraps below 2^32, so that is the
  equation l + 3200 j = yw.toNat of naturals, and at most one lane keeps its entry.
-/
import Idealize.ShloMosaic.PureOps.Ideal

noncomputable section

namespace Cert.NllMath

/-- The column word of lane l of tile j does not wrap: it is the label word exactly when l + 3200 j is the label. -/
private theorem word_eq_iff (yw : BitVec 32) (j l : ℕ) (hj : j < 10) (hl : l < 3200) :
    BitVec.ofNat 32 l + BitVec.ofNat 32 j * 3200#32 = yw ↔ l + 3200 * j = yw.toNat := by
  have hw : (BitVec.ofNat 32 l + BitVec.ofNat 32 j * 3200#32).toNat = l + 3200 * j := by
    simp only [BitVec.toNat_add, BitVec.toNat_mul, BitVec.toNat_ofNat]
    omega
  rw [← BitVec.toNat_inj, hw]

/-- The lane sum of column tile j: the row's entry at the label when the label lies in the tile, else 0. -/
theorem lane_sum (g : Fin 32000 → EReal) (yw : BitVec 32) (j : ℕ) (hj : j < 10) (hy : yw.toNat < 32000) :
    (∑ l : Fin 3200, (if BitVec.ofNat 32 l.val + BitVec.ofNat 32 j * 3200#32 = yw
        then g ⟨3200 * j + l.val, by have := l.isLt; omega⟩ else 0))
      = if 3200 * j ≤ yw.toNat ∧ yw.toNat < 3200 * (j + 1) then g ⟨yw.toNat, hy⟩ else 0 := by
  have key : ∀ l : Fin 3200,
      (BitVec.ofNat 32 l.val + BitVec.ofNat 32 j * 3200#32 = yw) ↔ l.val + 3200 * j = yw.toNat :=
    fun l => word_eq_iff yw j l.val hj l.isLt
  by_cases hin : 3200 * j ≤ yw.toNat ∧ yw.toNat < 3200 * (j + 1)
  · rw [if_pos hin]
    obtain ⟨h1, h2⟩ := hin
    have hlt : yw.toNat - 3200 * j < 3200 := by omega
    rw [Finset.sum_eq_single (⟨yw.toNat - 3200 * j, hlt⟩ : Fin 3200)]
    · have hk : BitVec.ofNat 32 (yw.toNat - 3200 * j) + BitVec.ofNat 32 j * 3200#32 = yw :=
        (word_eq_iff yw j _ hj hlt).2 (by omega)
      rw [if_pos hk]
      exact congrArg g (Fin.ext (by show 3200 * j + (yw.toNat - 3200 * j) = yw.toNat; omega))
    · intro l _ hne
      have hno : ¬(BitVec.ofNat 32 l.val + BitVec.ofNat 32 j * 3200#32 = yw) := by
        intro he
        have h3 := (key l).1 he
        exact hne (Fin.ext (by show l.val = yw.toNat - 3200 * j; omega))
      rw [if_neg hno]
    · intro hnot
      exact absurd (Finset.mem_univ _) hnot
  · rw [if_neg hin]
    refine Finset.sum_eq_zero fun l _ => ?_
    have hno : ¬(BitVec.ofNat 32 l.val + BitVec.ofNat 32 j * 3200#32 = yw) := by
      intro he
      have h3 := (key l).1 he
      have h4 := l.isLt
      omega
    rw [if_neg hno]

/-- One accumulation step: the entry is present after tile j exactly when the label is below 3200 (j + 1). -/
theorem acc_update (g : Fin 32000 → EReal) (yw : BitVec 32) (j : ℕ) (hj : j < 10) (hy : yw.toNat < 32000) :
    (if yw.toNat < 3200 * j then g ⟨yw.toNat, hy⟩ else 0)
      + (∑ l : Fin 3200, (if BitVec.ofNat 32 l.val + BitVec.ofNat 32 j * 3200#32 = yw
          then g ⟨3200 * j + l.val, by have := l.isLt; omega⟩ else 0))
      = if yw.toNat < 3200 * (j + 1) then g ⟨yw.toNat, hy⟩ else 0 := by
  rw [lane_sum g yw j hj hy]
  by_cases h1 : yw.toNat < 3200 * j
  · have h2 : ¬(3200 * j ≤ yw.toNat ∧ yw.toNat < 3200 * (j + 1)) := by omega
    have h3 : yw.toNat < 3200 * (j + 1) := by omega
    rw [if_pos h1, if_neg h2, if_pos h3, add_zero]
  · rw [if_neg h1, zero_add]
    by_cases h3 : yw.toNat < 3200 * (j + 1)
    · have h2 : 3200 * j ≤ yw.toNat ∧ yw.toNat < 3200 * (j + 1) := ⟨by omega, h3⟩
      rw [if_pos h2, if_pos h3]
    · have h2 : ¬(3200 * j ≤ yw.toNat ∧ yw.toNat < 3200 * (j + 1)) := fun h => h3 h.2
      rw [if_neg h2, if_neg h3]

end Cert.NllMath

end
-- ==== Proof.Accum.lean ====
/-
  The accumulator across the ten column tiles of a row tile, and the output block the last tile writes.

  Fix a row p of the row tile of point t = 10 r + j, let row = 512 r + p be the table row under it and y its label,
  a column number. After point t the accumulator's row p holds the table's entry (row, y) if y < 3200 (j + 1) and 0
  otherwise: the first tile starts from zeros, and tile j adds the entry exactly when 3200 j ≤ y < 3200 (j + 1).
  After the tenth tile the entry is there whatever y is, and the output block's row p is 0 - log of it.
-/
import proofs.«431061_j10316511445616_1_alg».proof.Proof.CaseValues
import proofs.«431061_j10316511445616_1_alg».proof.Proof.Payload
import proofs.«431061_j10316511445616_1_alg».proof.Proof.Blocks
import proofs.«431061_j10316511445616_1_alg».proof.Proof.StepMath

noncomputable section

open Idealize.ShloMosaic Idealize.ShloMosaic.TcCoe Idealize.SL.Sem Idealize.ShloMosaic.ValueIdx
open Idealize.ShloMosaic.Pipeline (Dat)

namespace Cert.NllAccum

open Cert.KernelIdeal Cert.KernelIdeal.Gen Cert.NllBlocks Cert.NllKernel Cert.NllPayload Cert.NllMath

variable (m : (ℓ : Loc nD τ sig) → Buf (Elt Ideal) ℓ)

/-- Row i's true-class entry, over the label column the region finds: the table at (i, y i) when the label word is a
    column number, and 0 otherwise. -/
def entry (c : Dev nD) (i : Fin 8192) : EReal :=
  if h : (yarr m c (ix2 i (0 : Fin 1))).toNat < 32000 then xarr m c (ix2 i ⟨(yarr m c (ix2 i (0 : Fin 1))).toNat, h⟩) else 0

/-- What the accumulator's row p holds after point n. -/
def accAt (c : Dev nD) (n : ℕ) (h : n < cfg0.N) (p : Fin 512) : EReal :=
  if (yarr m c (ix2 (rowOf ⟨n, h⟩ p) (0 : Fin 1))).toNat < 3200 * (n % 10 + 1) then entry m c (rowOf ⟨n, h⟩ p) else 0

/-- ONE TILE: over an accumulator whose row p holds the entry exactly when the label is below 3200 j, the contribution
    payload leaves it there exactly when the label is below 3200 (j + 1). -/
theorem step_eq (c : Dev nD) (hy : ∀ i : Fin 8192, (yarr m c (ix2 i (0 : Fin 1))).toNat < 32000) (t : Fin cfg0.N) (p : Fin 512)
    (v14 : Vec Ideal S512x1 .f32)
    (hv : v14 (ix2 p (0 : Fin 1))
      = if (yarr m c (ix2 (rowOf t p) (0 : Fin 1))).toNat < 3200 * (t.val % 10) then entry m c (rowOf t p) else 0) :
    k0_pay2 (F := Ideal) (grid0.coords t) (yblk m c t) (xblk m c t) v14 (ix2 p (0 : Fin 1))
      = if (yarr m c (ix2 (rowOf t p) (0 : Fin 1))).toNat < 3200 * (t.val % 10 + 1) then entry m c (rowOf t p) else 0 := by
  refine (pay2_apply (grid0.coords t) (yblk m c t) (xblk m c t) v14 p).trans ?_
  rw [hv, (idx_facts t).2.2.2.2.2.2, yblk_apply m c t p]
  simp only [xblk_apply m c t p]
  have hX : entry m c (rowOf t p)
      = xarr m c (ix2 (rowOf t p) ⟨(yarr m c (ix2 (rowOf t p) (0 : Fin 1))).toNat, hy (rowOf t p)⟩) := dif_pos (hy _)
  rw [hX]
  exact acc_update (fun cidx => xarr m c (ix2 (rowOf t p) cidx)) (yarr m c (ix2 (rowOf t p) (0 : Fin 1))) (t.val % 10)
    (Nat.mod_lt _ (by decide)) (hy _)

/-- The point before t, when t is not the first point of its row tile. -/
theorem pred_lt (t : Fin cfg0.N) : t.val - 1 < cfg0.N := Nat.lt_of_le_of_lt (Nat.sub_le _ _) t.isLt

/-- A LATER TILE of a row tile: over what the tile before left (the invariant there), the contribution payload
    leaves the invariant here: the row tile is the same and the tile number one more. -/
theorem pay2_step (c : Dev nD) (hy : ∀ i : Fin 8192, (yarr m c (ix2 i (0 : Fin 1))).toNat < 32000) (t : Fin cfg0.N)
    (h0 : ¬t.val % 10 = 0) (p : Fin 512)
    (ih : (outsAt0 m c (t.val - 1) (pred_lt t)).2 (ix2 p (0 : Fin 1)) = accAt m c (t.val - 1) (pred_lt t) p) :
    k0_pay2 (F := Ideal) (grid0.coords t) (yblk m c t) (xblk m c t) (outsAt0 m c (t.val - 1) (pred_lt t)).2 (ix2 p (0 : Fin 1))
      = accAt m c t.val t.isLt p := by
  refine (step_eq m c hy t p _ ?_).trans rfl
  rw [ih]
  unfold accAt
  have hN := t_lt t
  have hrow : rowOf ⟨t.val - 1, pred_lt t⟩ p = rowOf t p :=
    Fin.ext (by show 512 * ((t.val - 1) / 10) + p.val = 512 * (t.val / 10) + p.val; omega)
  have hj : (t.val - 1) % 10 + 1 = t.val % 10 := by omega
  rw [hrow, hj]

/-- The first tile of a row tile starts from zeros. -/
theorem acc_A (c : Dev nD) (hy : ∀ i : Fin 8192, (yarr m c (ix2 i (0 : Fin 1))).toNat < 32000) (t : Fin cfg0.N)
    (h0 : t.val % 10 = 0) (p : Fin 512) : (outsAt0 m c t.val t.isLt).2 (ix2 p (0 : Fin 1)) = accAt m c t.val t.isLt p := by
  have h1 : ¬t.val % 10 = 9 := by omega
  rw [outsAt0_A m c t h0 h1]
  dsimp only
  refine (congrFun (sout_A (F := Ideal) c (grid0.coords t) (ms0_0 t) (hs0_0 t) (ms0_1 t) (hs0_1 t) (ms0_2 t) (hs0_2 t) scM0_0 (Memref.isWhole_whole _) ((hcond0_0 t).mpr h0) (fun hh => h1 ((hcond0_1 t).mp hh))
    (xblk m c t) (yblk m c t)) (ix2 p (0 : Fin 1))).trans ?_
  refine (step_eq m c hy t p (k0_pay1 (F := Ideal)) ?_).trans rfl
  rw [pay1_apply, h0, Nat.mul_zero, if_neg (Nat.not_lt_zero _)]

/-- A middle tile. -/
theorem acc_B (c : Dev nD) (hy : ∀ i : Fin 8192, (yarr m c (ix2 i (0 : Fin 1))).toNat < 32000) (t : Fin cfg0.N)
    (h0 : ¬t.val % 10 = 0) (h1 : ¬t.val % 10 = 9) (p : Fin 512)
    (ih : (outsAt0 m c (t.val - 1) (pred_lt t)).2 (ix2 p (0 : Fin 1)) = accAt m c (t.val - 1) (pred_lt t) p) :
    (outsAt0 m c t.val t.isLt).2 (ix2 p (0 : Fin 1)) = accAt m c t.val t.isLt p := by
  rw [outsAt0_B m c t h0 h1]
  dsimp only
  refine (congrFun (sout_B (F := Ideal) c (grid0.coords t) (ms0_0 t) (hs0_0 t) (ms0_1 t) (hs0_1 t) (ms0_2 t) (hs0_2 t) scM0_0 (Memref.isWhole_whole _) (fun hh => h0 ((hcond0_0 t).mp hh)) (fun hh => h1 ((hcond0_1 t).mp hh))
    (xblk m c t) (yblk m c t) (outsAt0 m c (t.val - 1) (pred_lt t)).2) (ix2 p (0 : Fin 1))).trans ?_
  exact pay2_step m c hy t h0 p ih

/-- The last tile. -/
theorem acc_C (c : Dev nD) (hy : ∀ i : Fin 8192, (yarr m c (ix2 i (0 : Fin 1))).toNat < 32000) (t : Fin cfg0.N)
    (h0 : ¬t.val % 10 = 0) (h1 : t.val % 10 = 9) (p : Fin 512)
    (ih : (outsAt0 m c (t.val - 1) (pred_lt t)).2 (ix2 p (0 : Fin 1)) = accAt m c (t.val - 1) (pred_lt t) p) :
    (outsAt0 m c t.val t.isLt).2 (ix2 p (0 : Fin 1)) = accAt m c t.val t.isLt p := by
  rw [outsAt0_C m c t h0 h1]
  dsimp only
  refine (congrFun (sout_C (F := Ideal) c (grid0.coords t) (ms0_0 t) (hs0_0 t) (ms0_1 t) (hs0_1 t) (ms0_2 t) (hs0_2 t) scM0_0 (Memref.isWhole_whole _) (fun hh => h0 ((hcond0_0 t).mp hh)) ((hcond0_1 t).mpr h1)
    (xblk m c t) (yblk m c t) (outsAt0 m c (t.val - 1) (pred_lt t)).2) (ix2 p (0 : Fin 1))).trans ?_
  exact pay2_step m c hy t h0 p ih

/-- THE INVARIANT at every point, by induction on the point. -/
theorem acc_inv (c : Dev nD) (hy : ∀ i : Fin 8192, (yarr m c (ix2 i (0 : Fin 1))).toNat < 32000) :
    ∀ (n : ℕ) (h : n < cfg0.N) (p : Fin 512), (outsAt0 m c n h).2 (ix2 p (0 : Fin 1)) = accAt m c n h p := by
  intro n
  induction n with
  | zero => intro h p; exact acc_A m c hy ⟨0, h⟩ rfl p
  | succ k ih =>
    intro h p
    by_cases h0 : (k + 1) % 10 = 0
    · exact acc_A m c hy ⟨k + 1, h⟩ h0 p
    · by_cases h1 : (k + 1) % 10 = 9
      · exact acc_C m c hy ⟨k + 1, h⟩ h0 h1 p (ih _ p)
      · exact acc_B m c hy ⟨k + 1, h⟩ h0 h1 p (ih _ p)

/-- THE OUTPUT BLOCK at a last tile: row p is 0 - log of the row's true-class entry. -/
theorem out_row (c : Dev nD) (hy : ∀ i : Fin 8192, (yarr m c (ix2 i (0 : Fin 1))).toNat < 32000) (t : Fin cfg0.N)
    (h1 : t.val % 10 = 9) (p : Fin 512) :
    (outsAt0 m c t.val t.isLt).1 (ix2 p (0 : Fin 1))
      = Ideal.ofBits .f32 0x00000000#32 - Ideal.log (entry m c (rowOf t p)) := by
  have h0 : ¬t.val % 10 = 0 := by omega
  rw [outsAt0_C m c t h0 h1]
  dsimp only
  refine (congrFun (out_C (F := Ideal) c (grid0.coords t) (ms0_0 t) (hs0_0 t) (ms0_1 t) (hs0_1 t) (ms0_2 t) (hs0_2 t) scM0_0 (Memref.isWhole_whole _) (fun hh => h0 ((hcond0_0 t).mp hh)) ((hcond0_1 t).mpr h1)
    (xblk m c t) (yblk m c t) (outsAt0 m c (t.val - 1) (pred_lt t)).2) (ix2 p (0 : Fin 1))).trans ?_
  refine (pay3_apply _ _).trans ?_
  refine congrArg (fun z => Ideal.ofBits .f32 0x00000000#32 - Ideal.log z) ?_
  refine (pay2_step m c hy t h0 p (acc_inv m c hy _ _ p)).trans ?_
  unfold accAt
  rw [h1]
  exact if_pos (hy _)

end Cert.NllAccum

end
-- ==== Proof.KernelValue.lean ====
/-
  The kernel's result: from the output blocks to the result column, through the host lines after the region.

  Every tenth point (the last column tile of a row tile) writes its output block back: rows 512 r .. 512 r + 511 of
  the [8192, 1] result column, each row holding 0 - log of its true-class entry. The sixteen row tiles cover the
  column, so after the run row i holds 0 - log of row i's entry. The host then views the column as a vector, sums
  it from 0 and divides by 8192: the mean of the negated logs.
-/
import proofs.«431061_j10316511445616_1_alg».proof.Proof.Accum
import proofs.«431061_j10316511445616_1_alg».proof.Proof.Spec
import proofs.«431061_j10316511445616_1_alg».proof.Proof.LibRowTake

noncomputable section

open Idealize.ShloMosaic Idealize.ShloMosaic.TcCoe Idealize.SL.Sem Idealize.ShloMosaic.ValueIdx
open Idealize.ShloMosaic.Pipeline (Dat)

namespace Cert.NllKernelValue

open Cert.KernelIdeal Cert.KernelIdeal.Gen Cert.NllBlocks Cert.NllAccum Cert.LibRowTake

variable (m : (ℓ : Loc nD τ sig) → Buf (Elt Ideal) ℓ) (ρ : Dev nD → PrngReg)

/-- The result column: row i holds 0 - log of row i's true-class entry. -/
def col (c : Dev nD) : Vec Ideal S8192x1 .f32 :=
  fun i => Ideal.ofBits .f32 0x00000000#32 - Ideal.log (entry m c ⟨(i 0).val, idx2_lt0 i⟩)

/-- The output block a last column tile leaves, at any of its indices. -/
theorem out_block (c : Dev nD) (hy : ∀ i : Fin 8192, (yarr m c (ix2 i (0 : Fin 1))).toNat < 32000) (t : Fin cfg0.N)
    (h9 : t.val % 10 = 9) (j : S512x1.Idx) :
    (outsAt0 m c t.val t.isLt).1 j
      = Ideal.ofBits .f32 0x00000000#32 - Ideal.log (entry m c (rowOf t ⟨(j 0).val, idx2_lt0 j⟩)) := by
  have e : j = ix2 (⟨(j 0).val, idx2_lt0 j⟩ : Fin 512) (0 : Fin 1) := by
    funext a
    match a with
    | ⟨0, _⟩ => rfl
    | ⟨1, _⟩ => exact Fin.ext (Nat.lt_one_iff.mp (idx2_lt1 j))
  exact (congrArg (outsAt0 m c t.val t.isLt).1 e).trans (out_row m c hy t h9 _)

/-- WHAT A FLUSHING POINT WRITES BACK is its block of the result column. -/
theorem flushed_eq (c : Dev nD) (hy : ∀ i : Fin 8192, (yarr m c (ix2 i (0 : Fin 1))).toNat < 32000) (t : Fin cfg0.N)
    (hf : (cfg0.win 2).flush t = true) :
    (dats m 0 c).flushed 2 t = ((cfg0.win 2).blk t).view.read (Elt Ideal) (col m c) := by
  have h9 : t.val % 10 = 9 := (flush0_2 t).mp hf
  show (cfg0.win 2).cut (grid0.coords t) ((dats m 0 c).after 2 t) = _
  rw [after0_2]
  funext j
  show (outsAt0 m c t.val t.isLt).1 j = col m c (((cfg0.win 2).blk t).view.emb j)
  refine (out_block m c hy t h9 j).trans ?_
  unfold col
  refine congrArg (fun z => Ideal.ofBits .f32 0x00000000#32 - Ideal.log (entry m c z)) (Fin.ext ?_)
  show 512 * (t.val / 10) + (j 0).val = win0_2.index t 0 * 512 + 1 * (j 0).val
  rw [(idx_facts t).2.2.2.2.1]
  omega

/-- An index of the result column is in point t's block iff each coordinate is in the block's range on its axis. -/
theorem mem_blk (t : Fin cfg0.N) (i : S8192x1.Idx) :
    i ∈ ((cfg0.win 2).blk t).view.set ↔ ∀ a : Fin 2, win0_2.index t a * S512x1.size a ≤ (i a).val
      ∧ (i a).val < win0_2.index t a * S512x1.size a + S512x1.size a := by
  show i ∈ ((View.whole main_v1).slice (win0_2.rect t)).set ↔ _
  rw [View.set_slice_whole, Rect.mem_set_unit]
  exact Iff.rfl

/-- THE RESULT COLUMN after the run: row i of the column is under the flushing point of row tile i / 512. -/
theorem final_col (c : Dev nD) (hy : ∀ i : Fin 8192, (yarr m c (ix2 i (0 : Fin 1))).toNat < 32000) :
    (dats m 0 c).arrAt 2 cfg0.N = col m c :=
  (dats m 0 c).arrAt_eq_of_cover 2 (col m c) (fun t hf => flushed_eq m c hy t hf) fun i => by
    have hi0 : (i 0).val < 8192 := idx2_lt0 i
    have hi1 : (i 1).val < 1 := idx2_lt1 i
    have hN : cfg0.N = 160 := N_0
    let t : Fin cfg0.N := ⟨10 * ((i 0).val / 512) + 9, by rw [hN]; omega⟩
    have ht : t.val = 10 * ((i 0).val / 512) + 9 := rfl
    refine ⟨t, (flush0_2 t).mpr (by rw [ht]; omega), ?_⟩
    rw [mem_blk]
    intro a
    match a with
    | ⟨0, _⟩ =>
      show win0_2.index t 0 * 512 ≤ (i 0).val ∧ (i 0).val < win0_2.index t 0 * 512 + 512
      rw [(idx_facts t).2.2.2.2.1, ht]; omega
    | ⟨1, _⟩ =>
      show win0_2.index t 1 * 1 ≤ (i 1).val ∧ (i 1).val < win0_2.index t 1 * 1 + 1
      rw [(idx_facts t).2.2.2.2.2.1]; omega

/-- The host lines after the region, as one function of the result column: viewed as a vector, summed from 0,
    divided by 8192. -/
def tailOf (v : Vec Ideal S8192x1 .f32) : Vec Ideal S_ .f32 :=
  Host.divf (F := Ideal)
    (Host.reduceAdd (F := Ideal) (shapeCast S8192 v shapeCasts_S8192x1_S8192) (constant (F := Ideal) S_ .f32 0x00000000#32)
      reducesTo_S8192_S_d0 h_S_)
    (constant (F := Ideal) S_ .f32 0x46000000#32)

/-- What the program's result buffer holds after the host lines: the tail of the result column. -/
theorem tail_eq (c : Dev nD) (hy : ∀ i : Fin 8192, (yarr m c (ix2 i (0 : Fin 1))).toNat < 32000) :
    Pipeline.afterTail₀ cfgs (dats m) 0 (V0 m) [hostOps1] c main_v4 = tailOf (col m c) := by
  unfold Pipeline.afterTail₀
  show StableHlo.after hostOps1 _ (Proc.devRef .tc main_v4) = _
  after_results
  have hw : Pipeline.withArrays (cfgs 0).spec c (V0 m c) (fun w => (dats m 0 c).arrAt w (cfgs 0).N) (Proc.tc.devRef main_v1)
      = col m c :=
    (Pipeline.withArrays_arr spec0 launch0.win.arr_inj c _ _ 2).trans (final_col m c hy)
  rw [hw]
  rfl

/-- The column viewed as a vector reads row i at position i. -/
theorem col_vec (v : Vec Ideal S8192x1 .f32) (i : Fin 8192) :
    shapeCast S8192 v shapeCasts_S8192x1_S8192 (ix1 i) = v (ix2 i (0 : Fin 1)) :=
  shapeCast_apply v shapeCasts_S8192x1_S8192 (ix1 i) (ix2 i (0 : Fin 1)) (by
    rw [Shape.rowMajor_val_one, Shape.rowMajor_val_two]; show i.val * 1 + 0 = i.val; omega)

/-- THE TAIL'S VALUE: the mean of the rows' negated logs. -/
theorem tail_value (c : Dev nD) :
    tailOf (col m c) = fun _ => Cert.Nll.meanNegLog (entry m c) := by
  funext i
  unfold tailOf
  show Ideal.div (Host.reduceAdd (F := Ideal) (shapeCast S8192 (col m c) shapeCasts_S8192x1_S8192)
    (constant (F := Ideal) S_ .f32 0x00000000#32) reducesTo_S8192_S_d0 h_S_ i) (Ideal.ofBits .f32 0x46000000#32) = _
  have hsum : Host.reduceAdd (F := Ideal) (shapeCast S8192 (col m c) shapeCasts_S8192x1_S8192)
      (constant (F := Ideal) S_ .f32 0x00000000#32) reducesTo_S8192_S_d0 h_S_ i
      = Ideal.ofBits .f32 0x00000000#32 + ∑ k : Fin 8192, (Ideal.ofBits .f32 0x00000000#32 - Ideal.log (entry m c k)) := by
    simp only [Host.reduceAdd, Ideal.hostReduceAdd_def]
    refine (Ideal.hostReduceAdd_total reducesTo_S8192_S_d0 (fun b => b.elim0) _ _ i).trans ?_
    refine congrArg (fun z => Ideal.ofBits .f32 0x00000000#32 + z) ?_
    rw [← Equiv.sum_comp (rowEquiv 8192) (shapeCast S8192 (col m c) shapeCasts_S8192x1_S8192)]
    refine Finset.sum_congr rfl fun k _ => ?_
    show shapeCast S8192 (col m c) shapeCasts_S8192x1_S8192 (ix1 k) = _
    rw [col_vec]
    rfl
  rw [hsum]
  rfl

/-- The true-class entry over the arrays the region finds is the specification's, over the arguments as launched. -/
theorem entry_eq_pick (c : Dev nD) :
    entry m c = Cert.Nll.pick (m ((c : Thread nD τ).loc main_arg0)) (m ((c : Thread nD τ).loc main_arg1)) := by
  funext i
  unfold entry Cert.Nll.pick
  have hyi : yarr m c (ix2 i (0 : Fin 1)) = m ((c : Thread nD τ).loc main_arg1) (ix1 i) := yarr_apply m c i
  by_cases h : (yarr m c (ix2 i (0 : Fin 1))).toNat < 32000
  · rw [dif_pos h, dif_pos (show (m ((c : Thread nD τ).loc main_arg1) (ix1 i)).toNat < 32000 from hyi ▸ h)]
    refine (congrFun (xarr_eq m c) _).trans ?_
    exact congrArg (fun z => m ((c : Thread nD τ).loc main_arg0) (ix2 i z)) (Fin.ext (congrArg BitVec.toNat hyi))
  · rw [dif_neg h, dif_neg (show ¬(m ((c : Thread nD τ).loc main_arg1) (ix1 i)).toNat < 32000 from hyi ▸ h)]

/-- THE KERNEL'S RUN, READ: when every label word is a column number, every weakly fair execution terminates with
    the result at the mean of the negated logs of the true-class entries, and the arguments unchanged. -/
theorem run (hy : ∀ (c : Dev nD) (i : Fin 8192), (m ((c : Thread nD τ).loc main_arg1) (ix1 i)).toNat < 32000) :
    θ_run defs (onTc (τ := τ) (main (F := Ideal))) ⟨m, fun _ => 0, ρ⟩ fun r => ∀ c : Dev nD,
      r.2.mem ((c : Thread nD τ).loc main_v4)
        = (fun _ => Cert.Nll.meanNegLog (Cert.Nll.pick (m ((c : Thread nD τ).loc main_arg0)) (m ((c : Thread nD τ).loc main_arg1))))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v4 (Pipeline.mem_restRefs_of main_v4 (by decide) (by decide))).trans
        ((tail_eq m c (fun i => by rw [yarr_apply]; exact hy c i)).trans
          ((tail_value m c).trans (congrArg (fun e => fun _ => Cert.Nll.meanNegLog e) (entry_eq_pick m c)))),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.NllKernelValue

end
-- ==== Proof.lean ====
/-
  The negative log likelihood of the true class, averaged over 8192 rows: a kernel against its reference.

  Inputs: a table x : [8192, 32000] of extended reals and a label word y i per row. Under the precondition every entry
  of x is finite and every label is a column number, 0 ≤ y i < 32000.

  The kernel walks each row tile of 512 rows through the ten column tiles of 3200 columns. In a tile, a lane keeps its
  entry when its absolute column number equals the row's label and becomes 0 otherwise; the lane sum is added to a
  per-row accumulator that the first tile starts from zeros. Exactly one lane of one tile matches, so after the tenth
  tile the accumulator holds the true-class entry x (i, y i); the kernel stores 0 - log of it, and the host averages
  the 8192 rows: (0 + Σ_i (0 - log x (i, y i))) / 8192.

  The reference gathers x (i, y i) per row (its adjustment of negative labels, its range check and the gather's clamp
  all do nothing to a column number), takes the logs, averages and negates: -((0 + Σ_i log x (i, y i)) / 8192).

  The two are equal over the extended reals because no entry is +∞: each log is then a real or -∞, so negation
  passes through the sum and through the division by the positive real 8192.

  The three frames are the generated ones (the reference's is its generated run with the result dropped), and the
  ideal pass rewrote nothing, so the kernel's idealization is its own text read over the extended reals.
-/
import proofs.«431061_j10316511445616_1_alg».proof.Defs
import proofs.«431061_j10316511445616_1_alg».proof.Proof.Gen.Kernel
import proofs.«431061_j10316511445616_1_alg».proof.Proof.Gen.Kernel.Skeleton
import proofs.«431061_j10316511445616_1_alg».proof.Proof.Gen.Kernel.Launch
import proofs.«431061_j10316511445616_1_alg».proof.Proof.Gen.Kernel.Points
import proofs.«431061_j10316511445616_1_alg».proof.Proof.Gen.Kernel.Frame
import proofs.«431061_j10316511445616_1_alg».proof.Proof.Gen.KernelIdeal
import proofs.«431061_j10316511445616_1_alg».proof.Proof.Gen.KernelIdeal.Skeleton
import proofs.«431061_j10316511445616_1_alg».proof.Proof.Gen.KernelIdeal.Launch
import proofs.«431061_j10316511445616_1_alg».proof.Proof.Gen.KernelIdeal.Points
import proofs.«431061_j10316511445616_1_alg».proof.Proof.Gen.KernelIdeal.Frame
import proofs.«431061_j10316511445616_1_alg».proof.Proof.Gen.ReferenceIdeal
import proofs.«431061_j10316511445616_1_alg».proof.Proof.Gen.Pre_finite_inputs
import proofs.«431061_j10316511445616_1_alg».proof.Proof.Gen.ReferenceIdeal.Run
import proofs.«431061_j10316511445616_1_alg».proof.Proof.Gen.ReferenceIdeal.Read
import proofs.«431061_j10316511445616_1_alg».proof.Proof.Spec
import proofs.«431061_j10316511445616_1_alg».proof.Proof.PreRead
import proofs.«431061_j10316511445616_1_alg».proof.Proof.RefValue
import proofs.«431061_j10316511445616_1_alg».proof.Proof.KernelValue
import Idealize.ShloMosaic.Adequacy
import Idealize.ShloMosaic.Init

noncomputable section

namespace Cert.Proof

open Idealize.ShloMosaic Idealize.ShloMosaic.TcCoe Idealize.SL.Sem Idealize.ShloMosaic.ValueIdx

/-- The kernel as printed runs and keeps its arguments: the generated frame. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and keeps its arguments: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Over the extended reals both programs end at the same number: the kernel at the mean of the negated logs of the
    true-class entries, the reference at the negated mean of their logs, equal because no entry is +∞. -/
theorem algebraic : Cert.algebraic_KernelIdeal_ReferenceIdeal := by
  intro m ρ m' ρ' hpre hagree
  have hy : ∀ (c : Dev Cert.KernelIdeal.nD) (i : Fin 8192),
      (m ((c.tc : Thread Cert.KernelIdeal.nD Cert.KernelIdeal.τ).loc Cert.KernelIdeal.main_arg1) (ix1 i)).toNat < 32000 :=
    fun c => Cert.PreRead.label_lt _ _ (hpre c)
  refine ⟨fun c => fun _ => Cert.Nll.meanNegLog (Cert.Nll.pick
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))),
    Cert.NllKernelValue.run m ρ hy, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, (hagree c).1, (hagree c).2, Cert.RefValue.ref_result _ _ (hy c),
    ← Cert.Nll.meanNegLog_eq_negMeanLog _ (Cert.Nll.pick_ne_top _ _ (Cert.PreRead.table_ne_top _ _ (hpre c)))]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
